-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x24 : Shape := ⟨2, ![2000000, 24]⟩
abbrev S_ : Shape := ⟨0, ![]⟩

class Facts : Prop where
  bcast_S_S2000000x24 : S_.BroadcastsInDim S2000000x24 (![] : Fin 0 → Fin S2000000x24.rank)
  reducesTo_S2000000x24_S_d0_1 : S2000000x24.ReducesTo [0, 1] S_
  h_S_ : 0 < S_.numel

variable [Facts]

def fn {F : FTy → Type} [FloatOps F] (main_arg0 : FVec F S2000000x24 .f32) (main_arg1 : IVec S2000000x24 32) : IVec S_ 1 :=
  let main_v0 : FVec F S2000000x24 .f32 := Host.absf main_arg0
  let main_cst : FVec F S_ .f32 := constant S_ .f32 0x7F800000#32
  let main_v1 : FVec F S2000000x24 .f32 := broadcastInDim S2000000x24 ![] bcast_S_S2000000x24 main_cst
  let main_v2 : IVec S2000000x24 1 := cmpf .olt main_v0 main_v1
  let main_c : IVec S_ 1 := constantI S_ 1 1#1
  let main_v3 : IVec S_ 1 := (fun x v => Host.reduce IntOp.andi x v reducesTo_S2000000x24_S_d0_1 h_S_) main_v2 main_c
  main_v3
-- ==== Kernel.lean ====
abbrev S2000000x24 : Shape := ⟨2, ![2000000, 24]⟩
abbrev S2x1x1 : Shape := ⟨3, ![2, 1, 1]⟩
abbrev S8000x24 : Shape := ⟨2, ![8000, 24]⟩
abbrev S1x1x1 : Shape := ⟨3, ![1, 1, 1]⟩
abbrev S1x1 : Shape := ⟨2, ![1, 1]⟩
abbrev S8000 : Shape := ⟨1, ![8000]⟩
abbrev S8000x1 : Shape := ⟨2, ![8000, 1]⟩
abbrev S1 : Shape := ⟨1, ![1]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S2000000x24, .f32⟩
  | .hbm, ⟨1, _⟩ => ⟨S2000000x24, .i32⟩
  | .hbm, ⟨2, _⟩ => ⟨S2x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S8000x24, .f32⟩
  | .local _ .vmem, ⟨1, _⟩ => ⟨S8000x24, .f32⟩
  | .local _ .vmem, ⟨2, _⟩ => ⟨S8000x24, .i32⟩
  | .local _ .vmem, ⟨3, _⟩ => ⟨S8000x24, .i32⟩
  | .local _ .vmem, ⟨4, _⟩ => ⟨S1x1x1, .f32⟩
  | .local _ .vmem, ⟨5, _⟩ => ⟨S1x1x1, .f32⟩
  | _, _ => ⟨S2000000x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 125], ![false, false]⟩

def cc0_transform_0 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8000x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8000x24 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S8000x24_S8000x24_0_0 : ∀ a, (![0, 0] : Fin 2 → Nat) a + S8000x24.size a ≤ S8000x24.size a
  h_S8000x24 : 0 < S8000x24.numel
  reduces_S8000x24_S8000 : S8000x24.Reduces [1] S8000
  shapeCasts_S8000_S8000x1 : S8000.ShapeCasts S8000x1
  reduces_S8000x1_S1 : S8000x1.Reduces [0] S1
  shapeCasts_S1_S1x1 : S1.ShapeCasts S1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x24.size a ≤ S2000000x24.size a
  hwx0_0 : ∀ i : grid0.Coords, EltTy.bits .f32 = 32 ∨ (Rect.block (s := S2000000x24) S8000x24.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x24.size a ≤ S2000000x24.size a
  hwx0_1 : ∀ i : grid0.Coords, EltTy.bits .i32 = 32 ∨ (Rect.block (s := S2000000x24) S8000x24.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_arg0) S8000x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x24.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2000000x24 : Shape := ⟨2, ![2000000, 24]⟩
abbrev S_ : Shape := ⟨0, ![]⟩
abbrev S2000000 : Shape := ⟨1, ![2000000]⟩

abbrev nBuf : Space → Nat
  | .hbm => 29
  | .vmem => 0
  | .smem => 0
  | _ => 0

abbrev bufTy : (tb : Table) → Fin (tcTables nBuf tb) → BufTy
  | .hbm, ⟨0, _⟩ => ⟨S2000000x24, .f32⟩
  | .hbm, ⟨1, _⟩ => ⟨S2000000x24, .i32⟩
  | .hbm, ⟨2, _⟩ => ⟨S_, .i32⟩
  | .hbm, ⟨3, _⟩ => ⟨S2000000x24, .i32⟩
  | .hbm, ⟨4, _⟩ => ⟨S2000000x24, .i1⟩
  | .hbm, ⟨5, _⟩ => ⟨S_, .i32⟩
  | .hbm, ⟨6, _⟩ => ⟨S2000000x24, .i32⟩
  | .hbm, ⟨7, _⟩ => ⟨S2000000x24, .i1⟩
  | .hbm, ⟨8, _⟩ => ⟨S2000000x24, .f32⟩
  | .hbm, ⟨9, _⟩ => ⟨S_, .f32⟩
  | .hbm, ⟨10, _⟩ => ⟨S_, .f32⟩
  | .hbm, ⟨11, _⟩ => ⟨S2000000x24, .f32⟩
  | .hbm, ⟨12, _⟩ => ⟨S2000000x24, .f32⟩
  | .hbm, ⟨13, _⟩ => ⟨S_, .f32⟩
  | .hbm, ⟨14, _⟩ => ⟨S2000000, .f32⟩
  | .hbm, ⟨15, _⟩ => ⟨S2000000x24, .f32⟩
  | .hbm, ⟨16, _⟩ => ⟨S2000000x24, .f32⟩
  | .hbm, ⟨17, _⟩ => ⟨S_, .f32⟩
  | .hbm, ⟨18, _⟩ => ⟨S_, .f32⟩
  | .hbm, ⟨19, _⟩ => ⟨S2000000x24, .f32⟩
  | .hbm, ⟨20, _⟩ => ⟨S2000000x24, .f32⟩
  | .hbm, ⟨21, _⟩ => ⟨S_, .f32⟩
  | .hbm, ⟨22, _⟩ => ⟨S2000000, .f32⟩
  | .hbm, ⟨23, _⟩ => ⟨S2000000, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S2000000x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_call1_v0 : Ref sig .tc := ⟨.hbm, 18, rfl⟩
abbrev main_call1_v1 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩

abbrev nD : Nat := 1
abbrev τ : Topo := Topo.v7x

variable {F : FTy → Type} [FloatOps F]

class Facts₀ : Prop where
  bcast_S_S2000000x24 : S_.BroadcastsInDim S2000000x24 (![] : Fin 0 → Fin S2000000x24.rank)
  reducesTo_S2000000x24_S2000000_d1 : S2000000x24.ReducesTo [1] S2000000
  h_S_ : 0 < S_.numel
  reducesTo_S2000000_S_d0 : S2000000.ReducesTo [0] S_

variable [Facts₀]

class Facts : Prop extends Facts₀ where

variable [Facts]
-- ==== Proof.CaseValues.lean ====
/-
  What one grid point leaves in the accumulator's block.

  The body keeps a running total in a single-element output block. At the first point of a run it stores zero, reads it
  back, and stores zero plus the point's block sum; at every later point it reads what the point before left and stores
  that plus its own block sum. Both cases end with ONE store covering the block, so what the block holds is that store's
  value: the same function of the two input blocks, applied to zero in the first case and to the carried total in the
  other.
-/
import proofs.«410094_j33157147525792_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Lsep

open Cert.KernelIdeal Cert.KernelIdeal.Gen

variable {F : FTy → Type} [FloatOps F]

theorem zeros3 : (![0, 0, 0] : Fin 3 → Nat) = fun _ => 0 := funext fun a => by fin_cases a <;> rfl
theorem zeros2 : (![0, 0] : Fin 2 → Nat) = fun _ => 0 := funext fun a => by fin_cases a <;> rfl

/-- A later point of a run: the carried total `acc` plus the block sum of the two input blocks. -/
theorem later_point (c : Dev nD) (i : grid0.Coords) (a2 : Memref sig .tc .vmem S8000x24 .f32) (h2 : a2.IsWhole)
    (a3 : Memref sig .tc .vmem S8000x24 .i32) (h3 : a3.IsWhole) (a4 : Memref sig .tc .vmem S1x1x1 .f32) (h4 : a4.IsWhole)
    (hc : ¬cond0_0 i) (x : Vec F S8000x24 .f32) (t : Vec F S8000x24 .i32) (acc : Vec F S1x1x1 .f32) :
    out0_B_2 c i a2 h2 a3 h3 a4 h4 hc x t acc = k0_pay2 x t acc := by
  unfold out0_B_2
  rw [View.read_writes_eq_canon _ _ _ (cover0_B_2 c i a2 h2 a3 h3 a4 h4 hc x t acc)]
  unfold kernelRun0_B
  dsimp only
  sl_unfold_words
  rw [View.canon_unit_zero zeros3]
  simp only [View.readAt_eq_ld, h2.read_unread, h3.read_unread, h4.read_unread, View.ld_unit_zero (S := S8000x24) zeros2,
    View.ld_unit_zero (S := S1x1x1) zeros3]

/-- The first point of a run: the stored zero, read back, plus the block sum. -/
theorem first_point (c : Dev nD) (i : grid0.Coords) (a2 : Memref sig .tc .vmem S8000x24 .f32) (h2 : a2.IsWhole)
    (a3 : Memref sig .tc .vmem S8000x24 .i32) (h3 : a3.IsWhole) (a4 : Memref sig .tc .vmem S1x1x1 .f32) (h4 : a4.IsWhole)
    (hc : cond0_0 i) (x : Vec F S8000x24 .f32) (t : Vec F S8000x24 .i32) :
    out0_A_2 c i a2 h2 a3 h3 a4 h4 hc x t = k0_pay2 x t (k0_pay1 (F := F)) := by
  unfold out0_A_2
  rw [View.read_writes_eq_canon _ _ _ (cover0_A_2 c i a2 h2 a3 h3 a4 h4 hc x t)]
  unfold kernelRun0_A
  dsimp only
  sl_unfold_words
  rw [View.canon_cons_unit_zero (S := S1x1x1) zeros3, View.readCov_unit_zero (S := S1x1x1) _ zeros3]
  simp only [View.readAt_eq_ld, h2.read_unread, h3.read_unread, View.ld_unit_zero (S := S8000x24) zeros2]

end Cert.KernelIdeal.Lsep

end
-- ==== Proof.Spec.lean ====
/-
  The mathematics of the pairwise-exponential loss, apart from any program.

  For a row of scores x and integer labels t, the loss sums exp (x_n - x_p) over the pairs of a lane n whose
  label is zero and a lane p whose label is positive; the double sum factorizes as
  (Σ_{t_c = 0} exp x_c) · (Σ_{t_c > 0} exp (-x_c)). One side computes the two masked sums with two exponentials,
  the other with ONE: exp of x on the zero-label lanes and of 0 - x on the others, masked twice. Lane by lane the two
  agree on every extended real: a lane whose label is zero is not a positive lane, so the positive mask only ever
  selects exp (0 - x) = exp (-x).

  The total is a sum over all rows. One side adds the rows in order; the other cuts them into consecutive blocks of
  B rows, adds each block, and adds the blocks in consecutive runs. Addition on the extended reals is commutative
  and associative, so regrouping a sum over the first A·B naturals into A consecutive blocks of B changes nothing.
-/
import Idealize.ShloMosaic.PureOps.Ideal
import Idealize.ShloMosaic.PureOps.Ideal.Laws
import Idealize.ShloMosaic.Lib.ValueIdx

noncomputable section

namespace Cert.Lsep

open Idealize.ShloMosaic Idealize.ShloMosaic.ValueIdx

/-! ## One lane -/

/-- A zero-label lane's term: exp x where the label is zero, nothing elsewhere. -/
def zeroLane (x : EReal) (t : BitVec 32) : EReal :=
  Scalar.select (IntOp.cmpi .eq t 0#32) (Ideal.exp x) 0

/-- A positive-label lane's term: exp (-x) where the label is positive, nothing elsewhere. -/
def posLane (x : EReal) (t : BitVec 32) : EReal :=
  Scalar.select (IntOp.cmpi .sgt t 0#32) (Ideal.exp (-x)) 0

/-- The single exponential: of x on a zero-label lane, of 0 - x on any other. -/
def oneExp (x : EReal) (t : BitVec 32) : EReal :=
  Ideal.exp (Scalar.select (IntOp.cmpi .eq t 0#32) x (0 - x))

/-- A word that is zero is not above zero. -/
theorem sgt_zero_of_eq_zero {t : BitVec 32} (h : IntOp.cmpi .eq t 0#32 = 1#1) : IntOp.cmpi .sgt t 0#32 = 0#1 := by
  have ht : t = 0#32 := by
    by_contra hne
    have hb : (t == 0#32) = false := beq_eq_false_iff_ne.mpr hne
    simp only [IntOp.cmpi, hb] at h
    exact absurd h (by decide)
  subst ht
  decide

/-- Masked to the zero-label lanes, the single exponential is exp x there. -/
theorem select_eq_oneExp (x : EReal) (t : BitVec 32) :
    Scalar.select (IntOp.cmpi .eq t 0#32) (oneExp x t) 0 = zeroLane x t := by
  unfold oneExp zeroLane Scalar.select
  by_cases h : IntOp.cmpi .eq t 0#32 = 1
  · rw [if_pos h, if_pos h, if_pos h]
  · rw [if_neg h, if_neg h]

/-- Masked to the positive lanes, it is exp (-x) there: a positive lane's label is not zero, and 0 - x = -x. -/
theorem select_sgt_oneExp (x : EReal) (t : BitVec 32) :
    Scalar.select (IntOp.cmpi .sgt t 0#32) (oneExp x t) 0 = posLane x t := by
  unfold oneExp posLane Scalar.select
  by_cases hs : IntOp.cmpi .sgt t 0#32 = 1
  · have he : ¬IntOp.cmpi .eq t 0#32 = 1 := fun he => by
      rw [sgt_zero_of_eq_zero he] at hs; exact absurd hs (by decide)
    rw [if_pos hs, if_pos hs, if_neg he, zero_sub]
  · rw [if_neg hs, if_neg hs]

/-! ## One row, and rows numbered by naturals -/

/-- A row's term over R rows of 24 lanes: the zero-label sum times the positive-label sum. -/
def rowTerm {R : Nat} (X : (⟨2, ![R, 24]⟩ : Shape).Idx → EReal) (T : (⟨2, ![R, 24]⟩ : Shape).Idx → BitVec 32) (r : Fin R) : EReal :=
  (∑ c : Fin 24, zeroLane (X (ix2 r c)) (T (ix2 r c))) * (∑ c : Fin 24, posLane (X (ix2 r c)) (T (ix2 r c)))

/-- The same with the row named by a natural number: nothing past the last row. -/
def rowAt {R : Nat} (X : (⟨2, ![R, 24]⟩ : Shape).Idx → EReal) (T : (⟨2, ![R, 24]⟩ : Shape).Idx → BitVec 32) (n : Nat) : EReal :=
  if h : n < R then rowTerm X T ⟨n, h⟩ else 0

theorem rowAt_of_lt {R : Nat} (X : (⟨2, ![R, 24]⟩ : Shape).Idx → EReal) (T : (⟨2, ![R, 24]⟩ : Shape).Idx → BitVec 32) (n : Nat) (h : n < R) :
    rowAt X T n = rowTerm X T ⟨n, h⟩ := dif_pos h

/-- Block n of B consecutive rows, added. -/
def blockAt {R : Nat} (B : Nat) (X : (⟨2, ![R, 24]⟩ : Shape).Idx → EReal) (T : (⟨2, ![R, 24]⟩ : Shape).Idx → BitVec 32) (n : Nat) : EReal :=
  ∑ r ∈ Finset.range B, rowAt X T (B * n + r)

/-! ## Regrouping -/

/-- A sum over the first B·A naturals is the sum of its A consecutive blocks of B. -/
theorem sum_range_blocks {M : Type*} [AddCommMonoid M] (g : Nat → M) (B : Nat) :
    ∀ A : Nat, ∑ a ∈ Finset.range A, ∑ b ∈ Finset.range B, g (B * a + b) = ∑ n ∈ Finset.range (B * A), g n
  | 0 => by simp
  | A + 1 => by
    rw [Finset.sum_range_succ, sum_range_blocks g B A, Nat.mul_succ, Finset.sum_range_add]

/-- All the rows, added block by block and the blocks run by run (Q runs of J blocks of B rows), are all the rows added. -/
theorem sum_runs_blocks {R : Nat} (X : (⟨2, ![R, 24]⟩ : Shape).Idx → EReal) (T : (⟨2, ![R, 24]⟩ : Shape).Idx → BitVec 32)
    (Q J B : Nat) (hR : B * (J * Q) = R) :
    ∑ q ∈ Finset.range Q, ∑ s ∈ Finset.range J, blockAt B X T (J * q + s) = ∑ r : Fin R, rowTerm X T r := by
  rw [sum_range_blocks (blockAt B X T) J Q]
  unfold blockAt
  rw [sum_range_blocks (rowAt X T) B (J * Q), hR, Finset.sum_range]
  exact Finset.sum_congr rfl fun r _ => rowAt_of_lt X T r.val r.isLt

/-- The indices of a one-axis shape are the axis's coordinates. -/
def idxEquiv1 {n : Nat} : (⟨1, ![n]⟩ : Shape).Idx ≃ Fin n where
  toFun j := j 0
  invFun a := ix1 a
  left_inv j := (eq_ix1 j).symm
  right_inv _ := rfl

/-- A sum over the indices of a one-axis shape is the sum over the axis. -/
theorem sum_idx1 {M : Type*} [AddCommMonoid M] {n : Nat} (f : (⟨1, ![n]⟩ : Shape).Idx → M) :
    ∑ j : (⟨1, ![n]⟩ : Shape).Idx, f j = ∑ a : Fin n, f (ix1 a) :=
  Fintype.sum_equiv idxEquiv1 _ _ fun j => congrArg f (eq_ix1 j)

/-- An index of an [n, 1, 1] shape is its first coordinate followed by two zeros. -/
theorem eq_ix3_n11 {n : Nat} (j : (⟨3, ![n, 1, 1]⟩ : Shape).Idx) : j = ix3 (j 0) 0 0 := by
  funext d
  match d with
  | ⟨0, _⟩ => rfl
  | ⟨1, _⟩ => exact Fin.ext (by have h := (j 1).isLt; show (j 1).val = 0; simp at h; omega)
  | ⟨2, _⟩ => exact Fin.ext (by have h := (j 2).isLt; show (j 2).val = 0; simp at h; omega)

/-- The indices of an [n, 1, 1] shape are its first axis's coordinates. -/
def idxEquivN11 {n : Nat} : (⟨3, ![n, 1, 1]⟩ : Shape).Idx ≃ Fin n where
  toFun j := j 0
  invFun a := ix3 a 0 0
  left_inv j := (eq_ix3_n11 j).symm
  right_inv _ := rfl

/-- A sum over the indices of an [n, 1, 1] shape is the sum over its first axis. -/
theorem sum_idx_n11 {M : Type*} [AddCommMonoid M] {n : Nat} (f : (⟨3, ![n, 1, 1]⟩ : Shape).Idx → M) :
    ∑ j : (⟨3, ![n, 1, 1]⟩ : Shape).Idx, f j = ∑ a : Fin n, f (ix3 a 0 0) :=
  Fintype.sum_equiv idxEquivN11 _ _ fun j => congrArg f (eq_ix3_n11 j)

end Cert.Lsep

end
-- ==== Proof.BlockValue.lean ====
/-
  The body's stored value, read as a number.

  At the exact instance the value a point stores into the accumulator's one-element block is
      (what the block held) + Σ over the block's 8000 rows of (Σ_c zero-label lane term) · (Σ_c positive-label lane term),
  the lane terms taken from ONE exponential per lane (exp x on a zero-label lane, exp (0 - x) on the others) masked twice.
  Each lane sum is a reduction along the 24 lanes, the row sum a reduction along the 8000 rows; the shape changes in
  between only rename indices (a column of 8000 is a vector of 8000; shapes with a single element have a single index).
  Masked, the one exponential gives the two lane terms of the factorized pair sum (Spec), so the block's contribution is
  the sum of its rows' terms. The value stored at a run's first point starts from the stored zero.
-/
import proofs.«410094_j33157147525792_3_alg».proof.Proof.Gen.KernelIdeal.Skeleton
import proofs.«410094_j33157147525792_3_alg».proof.Proof.Spec
import Idealize.ShloMosaic.Lib.Pipeline.Value
import Idealize.ShloMosaic.PureOps.Ideal.Laws
import Idealize.ShloMosaic.Lib.ValueIdx

noncomputable section

open Idealize.ShloMosaic Idealize.ShloMosaic.TcCoe Idealize.SL.Sem Idealize.ShloMosaic.ValueIdx

namespace Cert.KernelIdeal.Lsep

open Cert.KernelIdeal Cert.KernelIdeal.Gen Cert.Lsep

/-! ## Shapes with one element have one index -/

theorem idx_S1x1x1_eq (a b : S1x1x1.Idx) : a = b := funext fun d => Fin.ext (by
  have ha := (a d).isLt; have hb := (b d).isLt
  have h1 : S1x1x1.size d = 1 := by fin_cases d <;> rfl
  omega)

theorem idx_S1x1_eq (a b : S1x1.Idx) : a = b := funext fun d => Fin.ext (by
  have ha := (a d).isLt; have hb := (b d).isLt
  have h1 : S1x1.size d = 1 := by fin_cases d <;> rfl
  omega)

theorem idx_S1_eq (a b : S1.Idx) : a = b := funext fun d => Fin.ext (by
  have ha := (a d).isLt; have hb := (b d).isLt
  have h1 : S1.size d = 1 := by fin_cases d <;> rfl
  omega)

/-- A shape cast out of a shape with one index reads that index, however it is named. -/
theorem shapeCast_of_one_idx {s t : Shape} {α : Type} (hs : ∀ a b : s.Idx, a = b) (x : s.Idx → α) (h : s.ShapeCasts t)
    (j : t.Idx) (k : s.Idx) : shapeCast t x h j = x k := congrArg x (hs _ _)

/-- A vector of 8000 viewed as a column of 8000 reads row r at r. -/
theorem column_apply {α : Type} (v : S8000.Idx → α) (h : S8000.ShapeCasts S8000x1) (r : Fin 8000) (z : Fin 1) :
    shapeCast S8000x1 v h (ix2 r z) = v (ix1 r) :=
  shapeCast_apply v h (ix2 r z) (ix1 r) (by
    rw [Shape.rowMajor_val_one, Shape.rowMajor_val_two]
    show r.val = r.val * 1 + z.val
    have := z.isLt
    omega)

/-! ## The two reductions as sums -/

/-- The reduction along the lanes, at row r: the sum over the 24 lanes. -/
theorem laneSum_apply (v : FVec Ideal S8000x24 .f32) (h : S8000x24.Reduces [1] S8000) (hφ : FKind.Formats .f32)
    (hacc : (0x00000000#32 : BitVec 32) = FKind.add.neutral .f32 hφ) (r : Fin 8000) :
    multiReduction .add [1] S8000 v 0x00000000#32 h hφ hacc (ix1 r) = ∑ c : Fin 24, v (ix2 r c) :=
  (Ideal.multiReduction_add_single v _ h hφ hacc (ix1 r)).trans
    (Finset.sum_congr rfl fun c _ => congrArg v (funext fun d => Fin.ext (by
      match d with
      | ⟨0, _⟩ => rfl
      | ⟨1, _⟩ => rfl)))

/-- The reduction along the rows of a column: the sum over the 8000 rows. -/
theorem rowSum_apply (v : FVec Ideal S8000x1 .f32) (h : S8000x1.Reduces [0] S1) (hφ : FKind.Formats .f32)
    (hacc : (0x00000000#32 : BitVec 32) = FKind.add.neutral .f32 hφ) :
    multiReduction .add [0] S1 v 0x00000000#32 h hφ hacc (ix1 0) = ∑ r : Fin 8000, v (ix2 r 0) :=
  (Ideal.multiReduction_add_single v _ h hφ hacc (ix1 0)).trans
    (Finset.sum_congr rfl fun r _ => congrArg v (funext fun d => Fin.ext (by
      match d with
      | ⟨0, _⟩ => rfl
      | ⟨1, _⟩ => rfl)))

/-! ## The lanes -/

/-- The zero-label mask of the one exponential, as the body spells it (the zeros are the float zero word). -/
theorem zero_lane (xv : EReal) (tv : BitVec 32) :
    Scalar.select (IntOp.cmpi .eq tv 0#32)
        (Ideal.exp (Scalar.select (IntOp.cmpi .eq tv 0#32) xv (Ideal.ofBits .f32 0x00000000#32 - xv)))
        (Ideal.ofBits .f32 0x00000000#32) = zeroLane xv tv := by
  rw [Ideal.ofBits_zero_f32]
  exact select_eq_oneExp xv tv

/-- The positive-label mask of the same exponential. -/
theorem pos_lane (xv : EReal) (tv : BitVec 32) :
    Scalar.select (IntOp.cmpi .sgt tv 0#32)
        (Ideal.exp (Scalar.select (IntOp.cmpi .eq tv 0#32) xv (Ideal.ofBits .f32 0x00000000#32 - xv)))
        (Ideal.ofBits .f32 0x00000000#32) = posLane xv tv := by
  rw [Ideal.ofBits_zero_f32]
  exact select_sgt_oneExp xv tv

/-! ## The stored values -/

/-- The zero a run's first point stores is the number zero. -/
theorem stored_zero_apply (j : S1x1x1.Idx) : k0_pay1 (F := Ideal) j = 0 := by
  show Ideal.ofBits .f32 0x00000000#32 = 0
  exact Ideal.ofBits_zero_f32

/-- What a point stores: the block's previous content plus the sum of its rows' terms. -/
theorem stored_apply (x : Vec Ideal S8000x24 .f32) (t : Vec Ideal S8000x24 .i32) (acc : Vec Ideal S1x1x1 .f32) (j : S1x1x1.Idx) :
    k0_pay2 x t acc j = acc j + ∑ r : Fin 8000, rowTerm x t r := by
  unfold k0_pay2
  dsimp only
  refine (shapeCast_of_one_idx idx_S1x1_eq _ _ j (ix2 0 0)).trans ?_
  refine (addf_apply _ _ _).trans ?_
  refine congrArg₂ (· + ·) (shapeCast_of_one_idx idx_S1x1x1_eq acc _ _ j) ?_
  refine (shapeCast_of_one_idx idx_S1_eq _ _ _ (ix1 0)).trans ?_
  refine (rowSum_apply _ _ _ _).trans ?_
  refine Finset.sum_congr rfl fun r _ => ?_
  refine (mulf_apply _ _ _).trans ?_
  unfold rowTerm
  refine congrArg₂ (· * ·) ?_ ?_
  · refine (column_apply _ _ r 0).trans ?_
    refine (laneSum_apply _ _ _ _ r).trans ?_
    exact Finset.sum_congr rfl fun c _ => zero_lane (x (ix2 r c)) (t (ix2 r c))
  · refine (column_apply _ _ r 0).trans ?_
    refine (laneSum_apply _ _ _ _ r).trans ?_
    exact Finset.sum_congr rfl fun c _ => pos_lane (x (ix2 r c)) (t (ix2 r c))

end Cert.KernelIdeal.Lsep

end
-- ==== Proof.Blocks.lean ====
/-
  The input blocks are stretches of rows.

  Grid point t = 125 p + i (p the core's half, i the step) fetches, for both inputs, block p · 125 + i = t of 8000 rows:
  rows 8000 t … 8000 t + 7999, all 24 lanes. The output's one-element block at point t is element ⌊t / 125⌋ of the two.
  So the sum of a block's row terms is the sum of the row terms of rows 8000 t … 8000 t + 7999 of the whole arrays.
-/
import proofs.«410094_j33157147525792_3_alg».proof.Proof.Gen.KernelIdeal.Frame
import proofs.«410094_j33157147525792_3_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Lsep

open Cert.KernelIdeal Cert.KernelIdeal.Gen Cert.Lsep

variable {F : FTy → Type} [FloatOps F]
variable (m : (ℓ : Loc nD τ sig) → Buf (Elt F) ℓ)

/-- The block indices at grid point t, decided once over the 250 points: both inputs are at block t along the rows and
    block 0 along the lanes; the output is at element ⌊t / 125⌋. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 125 ∧ win0_2.index t (1 : Fin 3) = 0 ∧ win0_2.index t (2 : Fin 3) = 0 :=
  (by decide +kernel : ∀ t : Fin grid0.N, _)

/-- The scores' and the labels' blocks at a point, and the whole arrays, at their literal types. -/
abbrev xblk (c : Dev nD) (t : Fin cfg0.N) : Vec F S8000x24 .f32 := iblk m c 0 t
abbrev tblk (c : Dev nD) (t : Fin cfg0.N) : Vec F S8000x24 .i32 := iblk m c 1 t
abbrev xarr (c : Dev nD) : Vec F S2000000x24 .f32 := V m c main_arg0
abbrev tarr (c : Dev nD) : Vec F S2000000x24 .i32 := V m c main_arg1

theorem point_lt (t : Fin cfg0.N) : t.val < 250 := lt_of_lt_of_eq t.isLt (show cfg0.N = 250 from N_0)

/-- Row r of block t is row 8000 t + r of the array. -/
theorem row_lt (t : Fin cfg0.N) (r : Fin 8000) : 8000 * t.val + r.val < 2000000 := by
  have := point_lt t; have := r.isLt; omega

theorem xblk_apply (c : Dev nD) (t : Fin cfg0.N) (r : Fin 8000) (l : Fin 24) :
    xblk m c t (ix2 r l) = xarr m c (ix2 ⟨8000 * t.val + r.val, row_lt t r⟩ l) := by
  obtain ⟨h0, h1, -⟩ := block_indices t
  show iblk m c 0 t (ix2 r l) = V m c main_arg0 _
  unfold iblk
  rw [View.read_apply]
  show V m c main_arg0 _ = V m c main_arg0 _
  congr 1
  funext a
  apply Fin.ext
  match a with
  | ⟨0, _⟩ => show win0_0.index t 0 * 8000 + 1 * r.val = 8000 * t.val + r.val; rw [h0]; omega
  | ⟨1, _⟩ => show win0_0.index t 1 * 24 + 1 * l.val = l.val; rw [h1]; omega

theorem tblk_apply (c : Dev nD) (t : Fin cfg0.N) (r : Fin 8000) (l : Fin 24) :
    tblk m c t (ix2 r l) = tarr m c (ix2 ⟨8000 * t.val + r.val, row_lt t r⟩ l) := by
  obtain ⟨-, -, h0, h1, -⟩ := block_indices t
  show iblk m c 1 t (ix2 r l) = V m c main_arg1 _
  unfold iblk
  rw [View.read_apply]
  show V m c main_arg1 _ = V m c main_arg1 _
  congr 1
  funext a
  apply Fin.ext
  match a with
  | ⟨0, _⟩ => show win0_1.index t 0 * 8000 + 1 * r.val = 8000 * t.val + r.val; rw [h0]; omega
  | ⟨1, _⟩ => show win0_1.index t 1 * 24 + 1 * l.val = l.val; rw [h1]; omega

end Cert.KernelIdeal.Lsep

/-! ## At the exact instance: a block's sum is the sum of its rows of the arrays -/

namespace Cert.KernelIdeal.Lsep

open Cert.KernelIdeal Cert.KernelIdeal.Gen Cert.Lsep

variable (m : (ℓ : Loc nD τ sig) → Buf (Elt Ideal) ℓ)

/-- The sum of block t's row terms, read from the blocks, is block t of the arrays' rows added. -/
theorem block_sum_eq (c : Dev nD) (t : Fin cfg0.N) :
    ∑ r : Fin 8000, rowTerm (xblk m c t) (tblk m c t) r = blockAt 8000 (xarr m c) (tarr m c) t.val := by
  unfold blockAt
  rw [Finset.sum_range]
  refine Finset.sum_congr rfl fun r _ => ?_
  rw [rowAt_of_lt _ _ _ (row_lt t r)]
  unfold rowTerm
  refine congrArg₂ (· * ·) (Finset.sum_congr rfl fun l _ => ?_) (Finset.sum_congr rfl fun l _ => ?_)
  · rw [xblk_apply m c t r l, tblk_apply m c t r l]
  · rw [xblk_apply m c t r l, tblk_apply m c t r l]

end Cert.KernelIdeal.Lsep

end
-- ==== Proof.Accumulate.lean ====
/-
  The running total over a run of 125 points.

  Points 125 q … 125 q + 124 share one output element. The first stores zero plus its block's sum; each later one adds its
  block's sum to what the point before left. So after point 125 q + j the element holds
      0 + Σ_{s ≤ j} (sum of block 125 q + s),
  by induction along the run (never over the whole grid): the fold of "add this point's block sum" from zero.
-/
import proofs.«410094_j33157147525792_3_alg».proof.Proof.CaseValues
import proofs.«410094_j33157147525792_3_alg».proof.Proof.BlockValue
import proofs.«410094_j33157147525792_3_alg».proof.Proof.Blocks

noncomputable section

open Idealize.ShloMosaic Idealize.ShloMosaic.TcCoe Idealize.SL.Sem Idealize.ShloMosaic.ValueIdx

namespace Cert.KernelIdeal.Lsep

open Cert.KernelIdeal Cert.KernelIdeal.Gen Cert.Lsep

variable (m : (ℓ : Loc nD τ sig) → Buf (Elt Ideal) ℓ)

/-- At the first point of a run the element holds the stored value over the stored zero. -/
theorem total_first (c : Dev nD) (n : Nat) (h : n < cfg0.N) (h0 : n % 125 = 0) :
    outsAt0 m c n h = k0_pay2 (xblk m c ⟨n, h⟩) (tblk m c ⟨n, h⟩) (k0_pay1 (F := Ideal)) :=
  (outsAt0_A m c ⟨n, h⟩ h0).trans
    (first_point (F := Ideal) c (grid0.coords ⟨n, h⟩) (ms0_0 ⟨n, h⟩) (hs0_0 ⟨n, h⟩) (ms0_1 ⟨n, h⟩) (hs0_1 ⟨n, h⟩)
      (ms0_2 ⟨n, h⟩) (hs0_2 ⟨n, h⟩) ((hcond0_0 ⟨n, h⟩).mpr h0) (iblk m c 0 ⟨n, h⟩) (iblk m c 1 ⟨n, h⟩))

/-- At a later point it holds the stored value over what the point before left. -/
theorem total_later (c : Dev nD) (n : Nat) (h : n + 1 < cfg0.N) (h0 : ¬(n + 1) % 125 = 0) :
    outsAt0 m c (n + 1) h
      = k0_pay2 (xblk m c ⟨n + 1, h⟩) (tblk m c ⟨n + 1, h⟩) (outsAt0 m c n (Nat.lt_of_succ_lt h)) :=
  (outsAt0_B m c ⟨n + 1, h⟩ h0).trans
    (later_point (F := Ideal) c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) (fun hh => h0 ((hcond0_0 ⟨n + 1, h⟩).mp hh))
      (iblk m c 0 ⟨n + 1, h⟩) (iblk m c 1 ⟨n + 1, h⟩) (outsAt0 m c n (Nat.lt_of_succ_lt h)))

/-- After point t the element holds zero plus the sums of the blocks of t's run up to t. -/
theorem total_eq_sum (c : Dev nD) (t : Nat) (ht : t < cfg0.N) (i : S1x1x1.Idx) :
    outsAt0 m c t ht i
      = 0 + ∑ s ∈ Finset.range (t % 125 + 1), blockAt 8000 (xarr m c) (tarr m c) (125 * (t / 125) + s) := by
  have h' : 125 * (t / 125) + t % 125 < cfg0.N := by rw [Nat.div_add_mod]; exact ht
  refine (congrFun (Pipeline.eq_accAt_of_mod (outsAt0 m c) 125
      (fun n h => k0_pay2 (xblk m c ⟨n, h⟩) (tblk m c ⟨n, h⟩) (k0_pay1 (F := Ideal)))
      (fun n h acc => k0_pay2 (xblk m c ⟨n, h⟩) (tblk m c ⟨n, h⟩) acc)
      (fun n h h0 => total_first m c n h h0) (fun n h h0 => total_later m c n h h0) (by decide) t ht h') i).trans ?_
  exact Pipeline.accAt_add_apply (ι := S1x1x1.Idx) (β := EReal)
    (fun n h => k0_pay2 (xblk m c ⟨n, h⟩) (tblk m c ⟨n, h⟩) (k0_pay1 (F := Ideal)))
    (fun n h acc => k0_pay2 (xblk m c ⟨n, h⟩) (tblk m c ⟨n, h⟩) acc)
    (fun _ => 0) (fun n _ => blockAt 8000 (xarr m c) (tarr m c) n) (125 * (t / 125)) 124
    (fun h j => by
      show k0_pay2 (xblk m c ⟨125 * (t / 125), h⟩) (tblk m c ⟨125 * (t / 125), h⟩) (k0_pay1 (F := Ideal)) j
        = 0 + blockAt 8000 (xarr m c) (tarr m c) (125 * (t / 125))
      rw [stored_apply, stored_zero_apply, block_sum_eq])
    (fun n h acc j _ _ => by
      show k0_pay2 (xblk m c ⟨n, h⟩) (tblk m c ⟨n, h⟩) acc j = acc j + blockAt 8000 (xarr m c) (tarr m c) n
      rw [stored_apply, block_sum_eq])
    (t % 125) (by have := Nat.mod_lt t (by decide : 0 < 125); omega) h' i

end Cert.KernelIdeal.Lsep

end
-- ==== Proof.FinalArray.lean ====
/-
  The two-element output after the region.

  Element p is written back once, after the last point 125 p + 124 of its run, with the run's total:
      0 + Σ_{s < 125} (sum of block 125 p + s).
  The two write-backs cover the two elements, so the array ends holding exactly these.
-/
import proofs.«410094_j33157147525792_3_alg».proof.Proof.Accumulate

noncomputable section

open Idealize.ShloMosaic Idealize.ShloMosaic.TcCoe Idealize.SL.Sem Idealize.ShloMosaic.ValueIdx
open Idealize.ShloMosaic.Pipeline (Dat)

namespace Cert.KernelIdeal.Lsep

open Cert.KernelIdeal Cert.KernelIdeal.Gen Cert.Lsep

variable (m : (ℓ : Loc nD τ sig) → Buf (Elt Ideal) ℓ)

/-- What the output holds after the region: at element p, the total of run p. -/
def runTotals (c : Dev nD) : Buf (Elt Ideal) ((c : Thread nD τ).loc main_v0) :=
  fun i => 0 + ∑ s ∈ Finset.range 125, blockAt 8000 (xarr m c) (tarr m c) (125 * (i 0).val + s)

/-- A write-back writes its element of `runTotals`: it happens at the last point of a run, where the running total is the
    run's. -/
theorem flushed_eq (c : Dev nD) (t : Fin cfg0.N) (hf : (cfg0.win 2).flush t = true) :
    (dats m 0 c).flushed 2 t = ((cfg0.win 2).blk t).view.read (Elt Ideal) (runTotals m c) := by
  have h124 : t.val % 125 = 124 := (flush0_2 t).mp hf
  obtain ⟨-, -, -, -, h0, -, -⟩ := block_indices t
  funext y
  show (dats m 0 c).after 2 t ((cfg0.win 2).xinj (grid0.coords t) y) = _
  rw [after0_2, View.read_apply, total_eq_sum m c t.val t.isLt, h124]
  show _ = runTotals m c (((cfg0.win 2).blk t).view.emb y)
  unfold runTotals
  have hy : (y 0).val < 1 := (y 0).isLt
  have he : ((((cfg0.win 2).blk t).view.emb y) 0).val = t.val / 125 := by
    show win0_2.index t 0 * 1 + 1 * (y 0).val = t.val / 125
    rw [h0]; omega
  rw [he]

/-- Element p is covered by the write-back at point 125 p + 124. -/
theorem covered (i : S2x1x1.Idx) :
    ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 1 := (i 2).isLt
  have hlt : 125 * (i 0).val + 124 < cfg0.N := by rw [show cfg0.N = 250 from N_0]; omega
  refine ⟨⟨125 * (i 0).val + 124, hlt⟩, (flush0_2 _).mpr (by show (125 * (i 0).val + 124) % 125 = 124; omega), ?_⟩
  obtain ⟨-, -, -, -, h0, h1, h2⟩ := block_indices ⟨125 * (i 0).val + 124, hlt⟩
  show i ∈ ((View.whole main_v0).slice (win0_2.rect ⟨125 * (i 0).val + 124, hlt⟩)).set
  rw [View.set_slice_whole, Rect.mem_set_unit]
  intro a
  match a with
  | ⟨0, _⟩ =>
    show win0_2.index ⟨125 * (i 0).val + 124, hlt⟩ 0 * 1 ≤ (i 0).val
      ∧ (i 0).val < win0_2.index ⟨125 * (i 0).val + 124, hlt⟩ 0 * 1 + 1
    rw [h0]; show (125 * (i 0).val + 124) / 125 * 1 ≤ (i 0).val ∧ (i 0).val < (125 * (i 0).val + 124) / 125 * 1 + 1; omega
  | ⟨1, _⟩ =>
    show win0_2.index ⟨125 * (i 0).val + 124, hlt⟩ 1 * 1 ≤ (i 1).val
      ∧ (i 1).val < win0_2.index ⟨125 * (i 0).val + 124, hlt⟩ 1 * 1 + 1
    rw [h1]; omega
  | ⟨2, _⟩ =>
    show win0_2.index ⟨125 * (i 0).val + 124, hlt⟩ 2 * 1 ≤ (i 2).val
      ∧ (i 2).val < win0_2.index ⟨125 * (i 0).val + 124, hlt⟩ 2 * 1 + 1
    rw [h2]; omega

/-- So the output ends holding the two runs' totals. -/
theorem output_eq (c : Dev nD) : (dats m 0 c).arrAt 2 cfg0.N = runTotals m c :=
  (dats m 0 c).arrAt_eq_of_cover 2 (runTotals m c) (flushed_eq m c) (fun i => covered i)

end Cert.KernelIdeal.Lsep

end
-- ==== Proof.KernelRun.lean ====
/-
  The kernel's whole run, with its result named.

  After the region the program adds the two elements of the output to zero, takes log (1 + ·) of the sum and divides by
  the number of rows, 2000000. The region's run leaves the output at the two runs' totals, so the result is this tail
  applied to them; the two argument arrays end as they began.
-/
import proofs.«410094_j33157147525792_3_alg».proof.Proof.FinalArray
import Idealize.ShloMosaic.Lib.StableHlo.Run
import Idealize.ShloMosaic.Lib.Tactic

noncomputable section

open Idealize.ShloMosaic Idealize.ShloMosaic.TcCoe Idealize.SL.Sem Idealize.ShloMosaic.StableHlo
open Idealize.ShloMosaic.Pipeline (Dat)

namespace Cert.KernelIdeal.Lsep

open Cert.KernelIdeal Cert.KernelIdeal.Gen Cert.Lsep

/-- The tail after the region: the sum of the two elements from zero, log (1 + ·), the quotient by the row count. -/
def lossOf (G : FVec Ideal S2x1x1 .f32) : FVec Ideal S_ .f32 :=
  Host.divf (F := Ideal)
    (Host.log1p (F := Ideal)
      (Host.reduceAdd (F := Ideal) G (constant (F := Ideal) S_ .f32 0x00000000#32) reducesTo_S2x1x1_S_d0_1_2 h_S_))
    (constant (F := Ideal) S_ .f32 0x49F42400#32)

variable (m : (ℓ : Loc nD τ sig) → Buf (Elt Ideal) ℓ) (ρ : Dev nD → PrngReg)

/-- What the lines after the region leave in the result: the tail of the two runs' totals. -/
theorem tail_eq (c : Dev nD) :
    Pipeline.afterTail₀ cfgs (dats m) 0 (V0 m) [hostOps1] c main_v3 = lossOf (runTotals m c) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v0)
      = runTotals m c :=
    (Pipeline.withArrays_arr spec0 launch0.win.arr_inj c _ _ 2).trans (output_eq m c)
  rw [e]
  rfl

/-- Every weakly fair execution ends with the result at the tail of the two totals and the arguments unchanged. -/
theorem run : θ_run defs (onTc (τ := τ) (main (F := Ideal))) ⟨m, fun _ => 0, ρ⟩ (fun r => ∀ c : Dev nD,
      r.2.mem ((c.tc : Thread nD τ).loc main_v3) = lossOf (runTotals m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v3 (Pipeline.mem_restRefs_of main_v3 rfl (by intro w; fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Lsep

end
-- ==== Proof.RefValue.lean ====
/-
  The reference, read as numbers.

  It masks exp x to the zero-label lanes and exp (-x) to the positive-label lanes, adds each over the 24 lanes from zero,
  multiplies the two sums row by row, and adds the 2000000 products from zero. So its total is the sum of the rows'
  terms of the factorized pair sum.
-/
import proofs.«410094_j33157147525792_3_alg».proof.Proof.Gen.ReferenceIdeal.Read
import proofs.«410094_j33157147525792_3_alg».proof.Proof.Spec
import Idealize.ShloMosaic.PureOps.Ideal.Laws
import Idealize.ShloMosaic.Lib.ValueIdx

noncomputable section

open Idealize.ShloMosaic Idealize.ShloMosaic.TcCoe Idealize.SL.Sem Idealize.ShloMosaic.ValueIdx

namespace Cert.ReferenceIdeal.Lsep

open Cert.ReferenceIdeal Cert.ReferenceIdeal.Read Cert.Lsep

variable (X : (⟨S2000000x24, .f32⟩ : BufTy).Contents (Elt Ideal)) (T : (⟨S2000000x24, .i32⟩ : BufTy).Contents (Elt Ideal))

/-- The zero-label masked exponential at a lane. -/
theorem zero_masked_apply (r : Fin 2000000) (l : Fin 24) :
    val_main_v5 (F := Ideal) X T (ix2 r l) = zeroLane (X (ix2 r l)) (T (ix2 r l)) := by
  rw [val_main_v5_apply, val_main_v3_apply, val_main_v2_apply, val_main_c_0_apply, val_main_v4_apply,
    val_main_call0_v1_apply, val_main_call0_v0_apply, val_main_cst_apply]
  show Scalar.select (IntOp.cmpi .eq (T (ix2 r l)) 0#32) (Ideal.exp (X (ix2 r l))) (Ideal.ofBits .f32 0x00000000#32) = _
  rw [Ideal.ofBits_zero_f32]
  rfl

/-- The positive-label masked exponential of the negated score at a lane. -/
theorem pos_masked_apply (r : Fin 2000000) (l : Fin 24) :
    val_main_v9 (F := Ideal) X T (ix2 r l) = posLane (X (ix2 r l)) (T (ix2 r l)) := by
  rw [val_main_v9_apply, val_main_v1_apply, val_main_v0_apply, val_main_c_apply, val_main_v8_apply, val_main_v7_apply,
    val_main_call1_v1_apply, val_main_call1_v0_apply, val_main_cst_2_apply]
  show Scalar.select (IntOp.cmpi .sgt (T (ix2 r l)) 0#32) (Ideal.exp (-(X (ix2 r l)))) (Ideal.ofBits .f32 0x00000000#32) = _
  rw [Ideal.ofBits_zero_f32]
  rfl

/-- Lane k of row r, as the two lane sums name it. -/
theorem lane_of_row6 (r : Fin 2000000) (k : Fin 24) : idx_main_v6 (ix1 r) k = ix2 r k :=
  funext fun a => by
    match a with
    | ⟨0, _⟩ => rfl
    | ⟨1, _⟩ => rfl

theorem lane_of_row10 (r : Fin 2000000) (k : Fin 24) : idx_main_v10 (ix1 r) k = ix2 r k :=
  funext fun a => by
    match a with
    | ⟨0, _⟩ => rfl
    | ⟨1, _⟩ => rfl

/-- A row's product is its term. -/
theorem row_apply (r : Fin 2000000) : val_main_v11 (F := Ideal) X T (ix1 r) = rowTerm (R := 2000000) X T r := by
  rw [val_main_v11_apply, val_main_v6_apply, val_main_v10_apply, val_main_cst_1_apply, val_main_cst_3_apply]
  show (Ideal.ofBits .f32 0x00000000#32 + ∑ k : Fin 24, val_main_v5 (F := Ideal) X T (idx_main_v6 (ix1 r) k))
      * (Ideal.ofBits .f32 0x00000000#32 + ∑ k : Fin 24, val_main_v9 (F := Ideal) X T (idx_main_v10 (ix1 r) k)) = _
  rw [Ideal.ofBits_zero_f32, zero_add, zero_add]
  unfold rowTerm
  refine congrArg₂ (· * ·) (Finset.sum_congr rfl fun k _ => ?_) (Finset.sum_congr rfl fun k _ => ?_)
  · rw [lane_of_row6]; exact zero_masked_apply X T r k
  · rw [lane_of_row10]; exact pos_masked_apply X T r k

/-- The total: zero plus the sum of all the rows' terms. -/
theorem total_apply (i : S_.Idx) :
    val_main_v12 (F := Ideal) X T i = 0 + ∑ r : Fin 2000000, rowTerm (R := 2000000) X T r := by
  rw [val_main_v12_apply, val_main_cst_4_apply]
  show Ideal.ofBits .f32 0x00000000#32 + ∑ j : S2000000.Idx, val_main_v11 (F := Ideal) X T j = _
  rw [Ideal.ofBits_zero_f32, sum_idx1]
  exact congrArg (0 + ·) (Finset.sum_congr rfl fun r _ => row_apply X T r)

end Cert.ReferenceIdeal.Lsep

end
-- ==== Proof.Bridge.lean ====
/-
  The two totals are one number.

  One program ends with log (1 + total) / 2000000 of the total added row by row; the other with the same two steps of
  the total added as two runs of 125 blocks of 8000 rows. Regrouped, the second total is the first (Spec), so the two
  results are equal.
-/
import proofs.«410094_j33157147525792_3_alg».proof.Proof.KernelRun
import proofs.«410094_j33157147525792_3_alg».proof.Proof.RefValue

noncomputable section

open Idealize.ShloMosaic Idealize.ShloMosaic.TcCoe Idealize.SL.Sem Idealize.ShloMosaic.ValueIdx

namespace Cert.Lsep

open Cert.KernelIdeal.Lsep Cert.ReferenceIdeal.Lsep

/-- The two runs' totals, as a function of the arrays alone. -/
def totalsOf (X : (⟨2, ![2000000, 24]⟩ : Shape).Idx → EReal) (T : (⟨2, ![2000000, 24]⟩ : Shape).Idx → BitVec 32) :
    FVec Ideal Cert.KernelIdeal.S2x1x1 .f32 :=
  fun i => 0 + ∑ s ∈ Finset.range 125, blockAt 8000 X T (125 * (i 0).val + s)

/-- Added from zero, the two runs' totals are the reference's total. -/
theorem totals_sum_eq (X : (⟨2, ![2000000, 24]⟩ : Shape).Idx → EReal) (T : (⟨2, ![2000000, 24]⟩ : Shape).Idx → BitVec 32) :
    Host.reduceAdd (F := Ideal) (totalsOf X T) (constant (F := Ideal) Cert.KernelIdeal.S_ .f32 0x00000000#32)
        Cert.KernelIdeal.Gen.reducesTo_S2x1x1_S_d0_1_2 Cert.KernelIdeal.Gen.h_S_
      = Cert.ReferenceIdeal.Read.val_main_v12 (F := Ideal) X T := by
  funext i
  rw [Cert.ReferenceIdeal.Lsep.total_apply]
  simp only [Host.reduceAdd, Ideal.hostReduceAdd_def]
  rw [Ideal.hostReduceAdd_total Cert.KernelIdeal.Gen.reducesTo_S2x1x1_S_d0_1_2 (fun b => b.elim0) _ _ i]
  show Ideal.ofBits .f32 0x00000000#32 + ∑ j : Cert.KernelIdeal.S2x1x1.Idx, totalsOf X T j = _
  rw [Ideal.ofBits_zero_f32, sum_idx_n11]
  refine congrArg (0 + ·) ?_
  refine (Finset.sum_congr rfl fun p _ => zero_add _).trans ?_
  exact (Finset.sum_range (n := 2) (fun p => ∑ s ∈ Finset.range 125, blockAt 8000 X T (125 * p + s))).symm.trans
    (sum_runs_blocks X T 2 125 8000 (by norm_num))

/-- So the reference's result is the kernel's tail of the two totals. -/
theorem result_eq (X : (⟨2, ![2000000, 24]⟩ : Shape).Idx → EReal) (T : (⟨2, ![2000000, 24]⟩ : Shape).Idx → BitVec 32) :
    Cert.ReferenceIdeal.Read.val_main_v14 (F := Ideal) X T = lossOf (totalsOf X T) := by
  unfold lossOf
  rw [totals_sum_eq X T]
  rfl

end Cert.Lsep

end
-- ==== Proof.lean ====
/-
  The pairwise-exponential ranking loss, computed two ways, is one number.

  For scores x and integer labels t of shape [2000000, 24] the loss is
      log (1 + Σ_rows (Σ_{t_c = 0} exp x_c) · (Σ_{t_c > 0} exp (-x_c))) / 2000000.
  The reference evaluates this as written. The kernel walks 250 blocks of 8000 rows in two runs of 125; in each block it
  forms ONE exponential per lane (exp x where the label is zero, exp (0 - x) elsewhere), masks it twice, multiplies the two
  lane sums per row and adds the rows; a single element per run accumulates the blocks, and after the region the two
  elements are added, then log (1 + ·) and the division by 2000000.

  Over the extended reals the two agree for every input: lane by lane the masked single exponential is the masked pair
  (a zero label is not positive, and 0 - x = -x), and the total only regroups a sum (addition is commutative and
  associative there, infinities included), so no finiteness is needed for the values. The frames of the two kernel
  programs are the generated ones; the reference's frame is its generated run with the result dropped; the idealization
  rewrote nothing.

  Modules: Spec (the lane identities, regrouping a sum into consecutive blocks), CaseValues (what the first and the later
  points of a run leave in the accumulator), BlockValue (the stored value as the previous content plus the block's row
  terms), Blocks (block t is rows 8000 t … 8000 t + 7999), Accumulate (the running total along a run), FinalArray (the two
  elements after the region), KernelRun (the tail and the whole run), RefValue (the reference read the same way), Bridge
  (the two totals are equal).
-/
import proofs.«410094_j33157147525792_3_alg».proof.Defs
import proofs.«410094_j33157147525792_3_alg».proof.Proof.Gen.Kernel
import proofs.«410094_j33157147525792_3_alg».proof.Proof.Gen.Kernel.Skeleton
import proofs.«410094_j33157147525792_3_alg».proof.Proof.Gen.Kernel.Launch
import proofs.«410094_j33157147525792_3_alg».proof.Proof.Gen.Kernel.Points
import proofs.«410094_j33157147525792_3_alg».proof.Proof.Gen.Kernel.Frame
import proofs.«410094_j33157147525792_3_alg».proof.Proof.Gen.KernelIdeal
import proofs.«410094_j33157147525792_3_alg».proof.Proof.Gen.KernelIdeal.Skeleton
import proofs.«410094_j33157147525792_3_alg».proof.Proof.Gen.KernelIdeal.Launch
import proofs.«410094_j33157147525792_3_alg».proof.Proof.Gen.KernelIdeal.Points
import proofs.«410094_j33157147525792_3_alg».proof.Proof.Gen.KernelIdeal.Frame
import proofs.«410094_j33157147525792_3_alg».proof.Proof.Gen.ReferenceIdeal
import proofs.«410094_j33157147525792_3_alg».proof.Proof.Gen.Pre_finite_inputs
import proofs.«410094_j33157147525792_3_alg».proof.Proof.Gen.ReferenceIdeal.Run
import proofs.«410094_j33157147525792_3_alg».proof.Proof.Gen.ReferenceIdeal.Read
import proofs.«410094_j33157147525792_3_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the tail of the two runs' totals of the same arrays. -/
theorem algebraic : Cert.algebraic_KernelIdeal_ReferenceIdeal := by
  intro m ρ m' ρ' _ hagree
  refine ⟨fun c => Cert.KernelIdeal.Lsep.lossOf (Cert.KernelIdeal.Lsep.runTotals m c), Cert.KernelIdeal.Lsep.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v14_eq _ _).trans (Cert.Lsep.result_eq _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
